-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1 : Shape := ⟨2, ![1024, 1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1024x1 .f32) (main_arg3 : FVec F S1024x1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S16384x1024 : Shape := ⟨2, ![16384, 1024]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1, .f32⟩
  | .hbm, ⟨3, _⟩ => ⟨S1024x1, .f32⟩
  | .hbm, ⟨4, _⟩ => ⟨S1024, .f32⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1_S1024 : S1024x1.ShapeCasts S1024
  bcast_S1024_S1x1024_1 : S1024.BroadcastsInDim S1x1024 (![1] : Fin 1 → Fin S1x1024.rank)
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1 : Shape := ⟨2, ![1024, 1]⟩
abbrev S16384x1 : Shape := ⟨2, ![16384, 1]⟩
abbrev S1024 : Shape := ⟨1, ![1024]⟩
abbrev S1x1024 : Shape := ⟨2, ![1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1, .f32⟩
  | .hbm, ⟨3, _⟩ => ⟨S1024x1, .f32⟩
  | .hbm, ⟨4, _⟩ => ⟨S16384x1, .f32⟩
  | .hbm, ⟨5, _⟩ => ⟨S16384x1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384x1_S16384x1024_0_1 : S16384x1.BroadcastsInDim S16384x1024 (![0, 1] : Fin 2 → Fin S16384x1024.rank)
  shapeCasts_S1024x1_S1024 : S1024x1.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1_S16384x1_1_0_0_1_n_n_wf : DotDims.WF S16384x1024 S1024x1 S16384x1 [1] [0] [0] [1] [] []

variable [Facts₀]

def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.CrossSpec.lean ====
/-
  The cross layer as ONE function of its four argument arrays, read index by index on the extended reals.
  For a batch row `r` and a feature column `d`,

      out[r, d] = x0[r, d] · (∑ₖ xl[r, k] · w[k, 0]) + b[d, 0] + xl[r, d]:

  the row's inner product with the weight column scales the row of `x0`, the bias column is read along the
  feature axis, and the row of `xl` is added back. Both programs compute exactly this term, so no law of the
  extended reals beyond reading each operation at an index is needed, and finiteness of the inputs is never used.
-/
import Idealize.ShloMosaic.PureOps.Ideal
import Idealize.ShloMosaic.Lib.ValueIdx

noncomputable section

namespace Cert.Cross

open Idealize.ShloMosaic Idealize.ShloMosaic.ValueIdx

/-- The batch-by-feature arrays `x0`, `xl` and the result. -/
abbrev Sbd : Shape := ⟨2, ![16384, 1024]⟩
/-- The weight and the bias, each a column over the feature axis. -/
abbrev Sd1 : Shape := ⟨2, ![1024, 1]⟩

/-- The inner product of row `r` of `xl` with the weight column: `∑ₖ xl[r, k] · w[k, 0]`. -/
def rowDot (xl : Sbd.Idx → EReal) (w : Sd1.Idx → EReal) (r : Fin 16384) : EReal :=
  ∑ k : Fin 1024, xl (ix2 r k) * w (ix2 k (0 : Fin 1))

/-- The layer at row `r`, column `d`: `x0[r, d] · rowDot r + b[d, 0] + xl[r, d]`. -/
def crossAt (x0 xl : Sbd.Idx → EReal) (w b : Sd1.Idx → EReal) (r : Fin 16384) (d : Fin 1024) : EReal :=
  x0 (ix2 r d) * rowDot xl w r + b (ix2 d (0 : Fin 1)) + xl (ix2 r d)

/-- The layer as a whole array. -/
def cross (x0 xl : Sbd.Idx → EReal) (w b : Sd1.Idx → EReal) : Sbd.Idx → EReal :=
  fun i => crossAt x0 xl w b (i 0) (i 1)

theorem cross_ix2 (x0 xl : Sbd.Idx → EReal) (w b : Sd1.Idx → EReal) (r : Fin 16384) (d : Fin 1024) :
    cross x0 xl w b (ix2 r d) = crossAt x0 xl w b r d := rfl

end Cert.Cross

end
-- ==== Proof.RefIsCross.lean ====
/-
  The reference's result, stage by stage, is the cross layer: its matrix product with the weight column is the
  row's inner product, broadcast along the feature axis; the bias column, reshaped to a vector, laid out as a
  row and broadcast along the batch axis, is read at the feature coordinate; the two sums are the layer's.
-/
import proofs.«120220_j34686155882557_1_alg».proof.Proof.Gen.ReferenceIdeal.Read
import proofs.«120220_j34686155882557_1_alg».proof.Proof.CrossSpec

noncomputable section

namespace Cert.ReferenceIdeal.RefValue

open Cert.ReferenceIdeal Cert.ReferenceIdeal.Read Idealize.ShloMosaic Idealize.ShloMosaic.ValueIdx

/-- The reference's last stage at an index is the layer at that index. -/
theorem ref_eq_cross (x0 x1 : (⟨S16384x1024, .f32⟩ : BufTy).Contents (Elt Ideal)) (x2 x3 : (⟨S1024x1, .f32⟩ : BufTy).Contents (Elt Ideal)) :
    val_main_v7 (F := Ideal) x0 x1 x2 x3 = Cert.Cross.cross x0 x1 x2 x3 := by
  funext i
  obtain ⟨r, d, rfl⟩ : ∃ (r : Fin 16384) (d : Fin 1024), i = ix2 r d := ⟨i 0, i 1, eq_ix2 i⟩
  rw [val_main_v7_apply, val_main_v6_apply, val_main_v2_apply, val_main_v1_apply, val_main_v0_apply,
    val_main_v5_apply, val_main_v4_apply, val_main_v3_apply, Cert.Cross.cross_ix2]
  have el : ∀ k : Fin 1024, lidx_main_v0 (idx_main_v1 (ix2 r d)) k = ix2 r k := fun k =>
    funext fun a => Fin.ext (by match a with | ⟨0, _⟩ => rfl | ⟨1, _⟩ => rfl)
  have er : ∀ k : Fin 1024, ridx_main_v0 (idx_main_v1 (ix2 r d)) k = ix2 k (0 : Fin 1) := fun k =>
    funext fun a => Fin.ext (by match a with | ⟨0, _⟩ => rfl | ⟨1, _⟩ => rfl)
  have eb : idx_main_v3 (idx_main_v4 (idx_main_v5 (ix2 r d))) = ix2 d (0 : Fin 1) :=
    funext fun a => Fin.ext (by
      match a with
      | ⟨0, _⟩ => exact Nat.div_one _
      | ⟨1, _⟩ => rfl)
  simp only [el, er, eb]
  rfl

end Cert.ReferenceIdeal.RefValue

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.BodyAt.lean ====
/-
  The body's stored value at one entry of the tile. For a tile of 1024 batch rows, with `xl` the tile of `xl`,
  `w` the weight column, `x0` the tile of `x0` and `b` the bias laid out as a row, the stored entry at row `p`,
  column `q` is

      x0[p, q] · (∑ₖ xl[p, k] · w[k, 0]) + b[0, q] + xl[p, q]:

  the matrix unit's product into a zero accumulator is the plain sum over the contracted axis, its one-column
  result is broadcast along the feature axis, and the bias row along the batch axis.
-/
import proofs.«120220_j34686155882557_1_alg».proof.Proof.Gen.KernelIdeal.Skeleton
import proofs.«120220_j34686155882557_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The tile's matrix product: which operand entries meet at an output entry -/

theorem lhs_tile_0 (i : S1024x1.Idx) (q : dot_S1024x1024_S1024x1_S1024x1_1_0_0_1_n_n.contr.Idx) :
    (dot_S1024x1024_S1024x1_S1024x1_1_0_0_1_n_n.lhsIdx i q 0).val = (i 0).val := by
  unfold DotDims.lhsIdx
  rw [dif_neg (show ¬(0 : Fin S1024x1024.rank) ∈ dot_S1024x1024_S1024x1_S1024x1_1_0_0_1_n_n.lhsBatch by decide), dif_pos (show (0 : Fin S1024x1024.rank) ∈ dot_S1024x1024_S1024x1_S1024x1_1_0_0_1_n_n.lhsNonContracting by decide)]
  rfl
theorem lhs_tile_1 (i : S1024x1.Idx) (q : dot_S1024x1024_S1024x1_S1024x1_1_0_0_1_n_n.contr.Idx) :
    (dot_S1024x1024_S1024x1_S1024x1_1_0_0_1_n_n.lhsIdx i q 1).val = (q ⟨0, by decide⟩).val :=
  dot_S1024x1024_S1024x1_S1024x1_1_0_0_1_n_n.lhsIdx_val_of_single rfl i q
theorem rhs_tile_0 (i : S1024x1.Idx) (q : dot_S1024x1024_S1024x1_S1024x1_1_0_0_1_n_n.contr.Idx) :
    (dot_S1024x1024_S1024x1_S1024x1_1_0_0_1_n_n.rhsIdx i q 0).val = (q ⟨0, by decide⟩).val :=
  dot_S1024x1024_S1024x1_S1024x1_1_0_0_1_n_n.rhsIdx_val_of_single rfl i q
theorem rhs_tile_1 (i : S1024x1.Idx) (q : dot_S1024x1024_S1024x1_S1024x1_1_0_0_1_n_n.contr.Idx) :
    (dot_S1024x1024_S1024x1_S1024x1_1_0_0_1_n_n.rhsIdx i q 1).val = (i 1).val := by
  unfold DotDims.rhsIdx
  rw [dif_neg (show ¬(1 : Fin S1024x1.rank) ∈ dot_S1024x1024_S1024x1_S1024x1_1_0_0_1_n_n.rhsBatch by decide), dif_pos (show (1 : Fin S1024x1.rank) ∈ dot_S1024x1024_S1024x1_S1024x1_1_0_0_1_n_n.rhsNonContracting by decide)]
  rfl

/-- The tile's product into the zero accumulator, at row `p` of its one column, is the row's inner product with
    the weight column. -/
theorem tile_matmul_apply (xl : FVec Ideal S1024x1024 .f32) (w : FVec Ideal S1024x1 .f32) (p : Fin 1024) (u : Fin 1) :
    matmul dot_S1024x1024_S1024x1_S1024x1_1_0_0_1_n_n none xl w (constant (F := Ideal) S1024x1 .f32 0x00000000#32) (ix2 p u)
      = ∑ k : Fin 1024, xl (ix2 p k) * w (ix2 k (0 : Fin 1)) := by
  refine (Ideal.matmul_constant_zero_apply _ _ _ _ _).trans ?_
  rw [← Equiv.sum_comp (ValueIdx.contrEquiv1 dot_S1024x1024_S1024x1_S1024x1_1_0_0_1_n_n 1024 rfl rfl).symm]
  refine Finset.sum_congr rfl fun k _ => ?_
  have hk := ValueIdx.contrEquiv1_symm_val dot_S1024x1024_S1024x1_S1024x1_1_0_0_1_n_n 1024 rfl rfl k
  have hu : u.val = 0 := by omega
  have el : dot_S1024x1024_S1024x1_S1024x1_1_0_0_1_n_n.lhsIdx (ix2 p u) ((ValueIdx.contrEquiv1 dot_S1024x1024_S1024x1_S1024x1_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1_S1024x1_1_0_0_1_n_n.rhsIdx (ix2 p u) ((ValueIdx.contrEquiv1 dot_S1024x1024_S1024x1_S1024x1_1_0_0_1_n_n 1024 rfl rfl).symm k) = ix2 k (0 : Fin 1) := funext fun a => Fin.ext (by
    match a with
    | ⟨0, _⟩ => exact (rhs_tile_0 _ _).trans hk
    | ⟨1, _⟩ => exact (rhs_tile_1 _ _).trans hu)
  rw [el, er]

/-! ## The stored value at an entry -/

/-- The body's one store, at row `p` and column `q` of the tile. -/
theorem pay_at (xl : Vec Ideal S1024x1024 .f32) (w : Vec Ideal S1024x1 .f32) (x0 : Vec Ideal S1024x1024 .f32) (b : Vec Ideal S1x1024 .f32)
    (p q : Fin 1024) :
    k0_pay1 (F := Ideal) xl w x0 b (ix2 p q)
      = x0 (ix2 p q) * (∑ k : Fin 1024, xl (ix2 p k) * w (ix2 k (0 : Fin 1))) + b (ix2 (0 : Fin 1) q) + xl (ix2 p q) := by
  unfold k0_pay1
  rw [addf_apply, addf_apply, mulf_apply, Cert.LibKeepdims.broadcastTo_a1_ab_apply, broadcastTo_1b_ab_apply, shapeCast_self,
    tile_matmul_apply]

end Cert.KernelIdeal.Body

end
-- ==== Proof.BlockValue.lean ====
/-
  From tiles to the array. The grid has 16 points; point `t` stages rows `1024·t … 1024·t + 1023` of `x0` and of
  `xl`, the whole weight column and the whole bias row, and writes back the same rows of the result. The bias row
  the region finds is the bias column reshaped to a vector and laid out along the feature axis, so its entry
  `[0, q]` is the column's `[q, 0]`. Each written tile is therefore the restriction of the cross layer to its
  rows, the 16 tiles cover the result array, and the array ends holding the layer of the arguments.
-/
import proofs.«120220_j34686155882557_1_alg».proof.Proof.Gen.KernelIdeal.Value
import proofs.«120220_j34686155882557_1_alg».proof.Proof.BodyAt
import proofs.«120220_j34686155882557_1_alg».proof.Proof.CrossSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- Where each window's block sits at grid point `t`: the two batch-tiled inputs and the output at block row `t`,
    the weight column and the bias row at their only block. Decided over the 16 points. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The arrays the region finds, at their literal types -/

abbrev arrX0 (c : Dev nD) : S16384x1024.Idx → EReal := V m c main_arg0
abbrev arrXl (c : Dev nD) : S16384x1024.Idx → EReal := V m c main_arg1
abbrev arrW (c : Dev nD) : S1024x1.Idx → EReal := V m c main_arg2
abbrev arrBcol (c : Dev nD) : S1024x1.Idx → EReal := V m c main_arg3
abbrev arrBrow (c : Dev nD) : S1x1024.Idx → EReal := V m c main_v1

/-- The bias row the region finds is the host's re-layout of the bias column. -/
theorem arrBrow_eq (c : Dev nD) :
    arrBrow m c = broadcastInDim S1x1024 ![1] bcast_S1024_S1x1024_1 (shapeCast S1024 (arrBcol m c) shapeCasts_S1024x1_S1024) := by
  show (V m c main_v1 : S1x1024.Idx → EReal) = broadcastInDim S1x1024 ![1] bcast_S1024_S1x1024_1 (shapeCast S1024 (V m c main_arg3 : S1024x1.Idx → EReal) shapeCasts_S1024x1_S1024)
  rw [V_main_arg3]
  dsimp only [Gen.V, Gen.hostOps0]
  after_results
  rfl

/-- Entry `[0, q]` of the bias row is entry `[q, 0]` of the bias column. -/
theorem arrBrow_apply (c : Dev nD) (u : Fin 1) (q : Fin 1024) : arrBrow m c (ix2 u q) = arrBcol m c (ix2 q (0 : Fin 1)) := by
  rw [arrBrow_eq]
  refine (broadcastInDim_apply _ bcast_S1024_S1x1024_1 _ (ix2 u q) (ix1 q) (fun a => match a with
    | ⟨0, _⟩ => by show q.val = if (1024 : Nat) = 1 then 0 else q.val; rw [if_neg (by decide)])).trans ?_
  exact shapeCast_apply _ shapeCasts_S1024x1_S1024 (ix1 q) (ix2 q (0 : Fin 1))
    (by rw [Shape.rowMajor_val_two, Shape.rowMajor_val_one]; show q.val * 1 + 0 = q.val; omega)

/-! ## Each window's block at a point, read off its array -/

/-- The tile of `x0` at point `t` is its rows from `1024·t`. -/
theorem x0_tile (c : Dev nD) (t : Fin cfg0.N) (x : S1024x1024.Idx) (k : S16384x1024.Idx)
    (hk0 : (k 0).val = t.val * 1024 + (x 0).val) (hk1 : (k 1).val = (x 1).val) :
    (iblk m c 0 t : Vec Ideal S1024x1024 .f32) x = arrX0 m c k := by
  obtain ⟨e0, e1, -⟩ := block_rows t
  unfold iblk
  rw [View.read_apply]
  show V m c main_arg0 _ = V m c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The tile of `xl` at point `t` is its rows from `1024·t`. -/
theorem xl_tile (c : Dev nD) (t : Fin cfg0.N) (x : S1024x1024.Idx) (k : S16384x1024.Idx)
    (hk0 : (k 0).val = t.val * 1024 + (x 0).val) (hk1 : (k 1).val = (x 1).val) :
    (iblk m c 1 t : Vec Ideal S1024x1024 .f32) x = arrXl m c k := by
  obtain ⟨-, -, e0, e1, -⟩ := block_rows t
  unfold iblk
  rw [View.read_apply]
  show V m c main_arg1 _ = V m c main_arg1 _
  congr 1
  funext a
  apply Fin.ext
  match a with
  | ⟨0, _⟩ => show win0_1.index t 0 * 1024 + 1 * (x 0).val = (k 0).val; rw [e0, hk0]; omega
  | ⟨1, _⟩ => show win0_1.index t 1 * 1024 + 1 * (x 1).val = (k 1).val; rw [e1, hk1]; omega

/-- Every point stages the whole weight column. -/
theorem w_tile (c : Dev nD) (t : Fin cfg0.N) (x : S1024x1.Idx) :
    (iblk m c 2 t : Vec Ideal S1024x1 .f32) x = arrW m c x := by
  obtain ⟨-, -, -, -, e0, e1, -⟩ := block_rows t
  unfold iblk
  rw [View.read_apply]
  show V m c main_arg2 _ = V m c main_arg2 _
  congr 1
  funext a
  apply Fin.ext
  match a with
  | ⟨0, _⟩ => show win0_2.index t 0 * 1024 + 1 * (x 0).val = (x 0).val; rw [e0]; omega
  | ⟨1, _⟩ => show win0_2.index t 1 * 1 + 1 * (x 1).val = (x 1).val; rw [e1]; omega

/-- Every point stages the whole bias row. -/
theorem b_tile (c : Dev nD) (t : Fin cfg0.N) (x : S1x1024.Idx) :
    (iblk m c 3 t : Vec Ideal S1x1024 .f32) x = arrBrow m c x := by
  obtain ⟨-, -, -, -, -, -, e0, e1, -⟩ := block_rows t
  unfold iblk
  rw [View.read_apply]
  show V m c main_v1 _ = V m c main_v1 _
  congr 1
  funext a
  apply Fin.ext
  match a with
  | ⟨0, _⟩ => show win0_3.index t 0 * 1 + 1 * (x 0).val = (x 0).val; rw [e0]; omega
  | ⟨1, _⟩ => show win0_3.index t 1 * 1024 + 1 * (x 1).val = (x 1).val; rw [e1]; omega

/-! ## What a point writes back -/

/-- The layer of the arrays the region finds. -/
abbrev layer (c : Dev nD) : S16384x1024.Idx → EReal :=
  Cert.Cross.cross (arrX0 m c) (arrXl m c) (arrW m c) (arrBcol m c)

/-- The body's stored tile at point `t`, entry `[p, q]`, is the layer at row `1024·t + p`, column `q`. -/
theorem stored_at (c : Dev nD) (t : Fin cfg0.N) (p q : Fin 1024) (r : Fin 16384) (hr : r.val = t.val * 1024 + p.val) :
    k0_pay1 (F := Ideal) (iblk m c 1 t) (iblk m c 2 t) (iblk m c 0 t) (iblk m c 3 t) (ix2 p q) = layer m c (ix2 r q) := by
  refine (Cert.KernelIdeal.Body.pay_at (iblk m c 1 t) (iblk m c 2 t) (iblk m c 0 t) (iblk m c 3 t) p q).trans ?_
  rw [x0_tile m c t (ix2 p q) (ix2 r q) hr rfl, xl_tile m c t (ix2 p q) (ix2 r q) hr rfl, b_tile m c t, arrBrow_apply]
  show _ = Cert.Cross.crossAt (arrX0 m c) (arrXl m c) (arrW m c) (arrBcol m c) r q
  unfold Cert.Cross.crossAt Cert.Cross.rowDot
  congr 2
  congr 1
  refine Finset.sum_congr rfl fun k _ => ?_
  rw [xl_tile m c t (ix2 p k) (ix2 r k) hr rfl, w_tile m c t]

/-- Point `t` writes back the layer's rows `1024·t … 1024·t + 1023`. -/
theorem flushed_eq (c : Dev nD) (t : Fin cfg0.N) :
    (dats m 0 c).flushed 4 t = ((cfg0.win 4).blk t).view.read (Elt Ideal) (layer m c) := by
  rw [flushed4]
  unfold out0_4
  rw [View.canon_unit_zero offsets_zero]
  simp only [View.ld_unit_zero (S := S1024x1024) offsets_zero, View.ld_unit_zero (S := S1024x1) offsets_zero,
    View.ld_unit_zero (S := S1x1024) offsets_zero]
  obtain ⟨-, -, -, -, -, -, -, -, e0, e1⟩ := block_rows t
  funext j
  have hj0 : (j 0).val < 1024 := (j 0).isLt
  have hj1 : (j 1).val < 1024 := (j 1).isLt
  have ht : t.val < 16 := Nat.lt_of_lt_of_eq t.isLt N_0
  show k0_pay1 (F := Ideal) (iblk m c 1 t) (iblk m c 2 t) (iblk m c 0 t) (iblk m c 3 t) j
    = layer m c (((cfg0.win 4).blk t).view.emb j)
  rw [show j = ix2 (j 0) (j 1) from eq_ix2 j]
  refine (stored_at m c t (j 0) (j 1) ⟨t.val * 1024 + (j 0).val, by omega⟩ rfl).trans ?_
  congr 1
  funext a
  apply Fin.ext
  match a with
  | ⟨0, _⟩ => show t.val * 1024 + (j 0).val = win0_4.index t 0 * 1024 + 1 * (j 0).val; rw [e0]; omega
  | ⟨1, _⟩ => show (j 1).val = win0_4.index t 1 * 1024 + 1 * (j 1).val; rw [e1]; omega

/-! ## The tiles cover the result -/

/-- An index of the result is in point `t`'s block iff each coordinate is in the block's range on its axis. -/
theorem mem_tile (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]
  exact Iff.rfl

/-- Row `r` of the result lies in the block of point `r / 1024`. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := N_0
  let t : Fin cfg0.N := ⟨(i 0).val / 1024, by rw [hN]; omega⟩
  obtain ⟨-, -, -, -, -, -, -, -, e0, e1⟩ := block_rows t
  have ht : t.val = (i 0).val / 1024 := rfl
  refine ⟨t, flush0_4 t, ?_⟩
  rw [mem_tile]
  intro a
  match a with
  | ⟨0, _⟩ => show win0_4.index t 0 * 1024 ≤ (i 0).val ∧ (i 0).val < win0_4.index t 0 * 1024 + 1024; rw [e0, ht]; omega
  | ⟨1, _⟩ => show win0_4.index t 1 * 1024 ≤ (i 1).val ∧ (i 1).val < win0_4.index t 1 * 1024 + 1024; rw [e1]; omega

/-- The result array after the run is the layer of the arrays the region finds … -/
theorem final_layer (c : Dev nD) : (dats m 0 c).arrAt 4 cfg0.N = layer m c :=
  (dats m 0 c).arrAt_eq_of_cover 4 (layer m c) (fun t _ => flushed_eq m c t) covered

/-- … which are the argument arrays as launched. -/
theorem layer_eq (c : Dev nD) :
    layer m c = Cert.Cross.cross (m ((c : Thread nD τ).loc main_arg0)) (m ((c : Thread nD τ).loc main_arg1))
      (m ((c : Thread nD τ).loc main_arg2)) (m ((c : Thread nD τ).loc main_arg3)) := by
  show Cert.Cross.cross (V m c main_arg0) (V m c main_arg1) (V m c main_arg2) (V m c main_arg3) = _
  rw [V_main_arg0, V_main_arg1, V_main_arg2, V_main_arg3]

/-! ## The run, read -/

/-- Every weakly fair execution ends with the result array at the layer of the arguments, the arguments unchanged. -/
theorem run : θ_run defs (onTc (τ := τ) (main (F := Ideal))) ⟨m, fun _ => 0, ρ⟩ fun r => ∀ c : Dev nD,
      r.2.mem ((c : Thread nD τ).loc main_v2) = Cert.Cross.cross (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final_layer m c).trans (layer_eq m c)), (h c).2⟩)
    (run_blocks m ρ)

end Cert.KernelIdeal.ArrValue

end
-- ==== Proof.lean ====
/-
  The cross layer `out = x0 · (xl · w) + b + xl` over 16384 batch rows and 1024 features: a kernel that tiles the
  batch axis into 16 tiles of 1024 rows and, per tile, multiplies the tile of `xl` with the weight column on the
  matrix unit, broadcasts the one-column product along the features, scales the tile of `x0` by it, adds the bias
  laid out as a row and adds the tile of `xl` back — against the reference, which does the same with one whole
  matrix product.

  On the extended reals both compute, at row `r` and column `d`,
  `x0[r, d] · (∑ₖ xl[r, k] · w[k, 0]) + b[d, 0] + xl[r, d]` (`Cert.Cross.cross`): the matrix unit's product into a zero
  accumulator and the host's `dot_general` are the same sum over the contracted axis, a tile's row `p` at point `t`
  is the array's row `1024·t + p`, and the bias row's entry `[0, d]` is the bias column's entry `[d, 0]`. The two
  sides are the same term, so no algebraic law is needed and the finiteness of the inputs is not used.

  The frames are the generated ones; the reference's frame is its generated run with the result dropped; the
  idealization rewrote nothing, so `preserves` is trivial.
-/
import proofs.«120220_j34686155882557_1_alg».proof.Defs
import proofs.«120220_j34686155882557_1_alg».proof.Proof.Gen.Kernel
import proofs.«120220_j34686155882557_1_alg».proof.Proof.Gen.Kernel.Skeleton
import proofs.«120220_j34686155882557_1_alg».proof.Proof.Gen.Kernel.Launch
import proofs.«120220_j34686155882557_1_alg».proof.Proof.Gen.Kernel.Points
import proofs.«120220_j34686155882557_1_alg».proof.Proof.Gen.Kernel.Frame
import proofs.«120220_j34686155882557_1_alg».proof.Proof.Gen.KernelIdeal
import proofs.«120220_j34686155882557_1_alg».proof.Proof.Gen.KernelIdeal.Skeleton
import proofs.«120220_j34686155882557_1_alg».proof.Proof.Gen.KernelIdeal.Launch
import proofs.«120220_j34686155882557_1_alg».proof.Proof.Gen.KernelIdeal.Points
import proofs.«120220_j34686155882557_1_alg».proof.Proof.Gen.KernelIdeal.Frame
import proofs.«120220_j34686155882557_1_alg».proof.Proof.Gen.ReferenceIdeal
import proofs.«120220_j34686155882557_1_alg».proof.Proof.Gen.Pre_finite_inputs
import proofs.«120220_j34686155882557_1_alg».proof.Proof.Gen.KernelIdeal.Value
import proofs.«120220_j34686155882557_1_alg».proof.Proof.Gen.ReferenceIdeal.Run
import proofs.«120220_j34686155882557_1_alg».proof.Proof.Gen.ReferenceIdeal.Read
import proofs.«120220_j34686155882557_1_alg».proof.Proof.RefIsCross
import proofs.«120220_j34686155882557_1_alg».proof.Proof.BlockValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the cross layer of the (agreeing) arguments. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_cross,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
